-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x2000000 : Shape := ⟨2, ![2, 2000000]⟩
abbrev S2000000 : Shape := ⟨1, ![2000000]⟩
abbrev S1000x128 : Shape := ⟨2, ![1000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S2x2000000 : S_.BroadcastsInDim S2x2000000 (![] : Fin 0 → Fin S2x2000000.rank)
  reducesTo_S2x2000000_S_d0_1 : S2x2000000.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg2 : IVec S2000000 32) (main_v15 : IVec S_ 1) (main_c_5 : IVec S_ 32) : IVec S_ 1 :=
  let main_v16 : IVec S2000000 32 := broadcastInDim S2000000 ![] bcast_S_S2000000 main_c_5
  let main_v17 : IVec S2000000 1 := cmpi .sge main_arg2 main_v16
  let main_c_6 : IVec S_ 32 := constantI S_ 32 1000#32
  let main_v18 : IVec S2000000 32 := broadcastInDim S2000000 ![] bcast_S_S2000000 main_c_6
  let main_v19 : IVec S2000000 1 := cmpi .slt main_arg2 main_v18
  let main_v20 : IVec S2000000 1 := andi main_v17 main_v19
  let main_c_7 : IVec S_ 1 := constantI S_ 1 1#1
  let main_v21 : IVec S_ 1 := (fun x v => Host.reduce IntOp.andi x v reducesTo_S2000000_S_d0 h_S_) main_v20 main_c_7
  let main_v22 : IVec S_ 1 := andi main_v15 main_v21
  main_v22

def fn {F : FTy → Type} [FloatOps F] (main_arg0 : FVec F S100000x128 .f32) (main_arg1 : IVec S2x2000000 32) (main_arg2 : IVec S2000000 32) (main_arg3 : FVec F S1000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg3
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_c_2 : IVec S_ 32 := constantI S_ 32 0#32
  let main_v9 : IVec S2x2000000 32 := broadcastInDim S2x2000000 ![] bcast_S_S2x2000000 main_c_2
  let main_v10 : IVec S2x2000000 1 := cmpi .sge main_arg1 main_v9
  let main_c_3 : IVec S_ 32 := constantI S_ 32 100000#32
  let main_v11 : IVec S2x2000000 32 := broadcastInDim S2x2000000 ![] bcast_S_S2x2000000 main_c_3
  let main_v12 : IVec S2x2000000 1 := cmpi .slt main_arg1 main_v11
  let main_v13 : IVec S2x2000000 1 := andi main_v10 main_v12
  let main_c_4 : IVec S_ 1 := constantI S_ 1 1#1
  let main_v14 : IVec S_ 1 := (fun x v => Host.reduce IntOp.andi x v reducesTo_S2x2000000_S_d0_1 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S100000x128 : Shape := ⟨2, ![100000, 128]⟩
abbrev S2x2000000 : Shape := ⟨2, ![2, 2000000]⟩
abbrev S2000000 : Shape := ⟨1, ![2000000]⟩
abbrev S1000x128 : Shape := ⟨2, ![1000, 128]⟩
abbrev S1x2000000 : Shape := ⟨2, ![1, 2000000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x128 : Shape := ⟨2, ![2000000, 128]⟩
abbrev S2015232x128 : Shape := ⟨2, ![2015232, 128]⟩
abbrev S2015232 : Shape := ⟨1, ![2015232]⟩
abbrev S16384x128 : Shape := ⟨2, ![16384, 128]⟩
abbrev S16384 : Shape := ⟨1, ![16384]⟩

abbrev nBuf : Space → Nat
  | .hbm => 84
  | .vmem => 4
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S2000000, .i32⟩
  | .hbm, ⟨3, _⟩ => ⟨S1000x128, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S1, .i32⟩
  | .hbm, ⟨17, _⟩ => ⟨S_, .i32⟩
  | .hbm, ⟨18, _⟩ => ⟨S2000000x1, .i32⟩
  | .hbm, ⟨19, _⟩ => ⟨S2000000x1, .i1⟩
  | .hbm, ⟨20, _⟩ => ⟨S1x1, .i32⟩
  | .hbm, ⟨21, _⟩ => ⟨S2000000x1, .i32⟩
  | .hbm, ⟨22, _⟩ => ⟨S2000000x1, .i1⟩
  | .hbm, ⟨23, _⟩ => ⟨S2000000x1, .i1⟩
  | .hbm, ⟨24, _⟩ => ⟨S_, .i1⟩
  | .hbm, ⟨25, _⟩ => ⟨S2000000, .i1⟩
  | .hbm, ⟨26, _⟩ => ⟨S2000000x128, .f32⟩
  | .hbm, ⟨27, _⟩ => ⟨S2000000x128, .i1⟩
  | .hbm, ⟨28, _⟩ => ⟨S_, .f32⟩
  | .hbm, ⟨29, _⟩ => ⟨S2000000x128, .f32⟩
  | .hbm, ⟨30, _⟩ => ⟨S2000000x128, .f32⟩
  | .hbm, ⟨31, _⟩ => ⟨S_, .i32⟩
  | .hbm, ⟨32, _⟩ => ⟨S2000000, .i32⟩
  | .hbm, ⟨33, _⟩ => ⟨S2000000, .i1⟩
  | .hbm, ⟨34, _⟩ => ⟨S_, .i32⟩
  | .hbm, ⟨35, _⟩ => ⟨S2000000, .i32⟩
  | .hbm, ⟨36, _⟩ => ⟨S2000000, .i32⟩
  | .hbm, ⟨37, _⟩ => ⟨S2000000, .i32⟩
  | .hbm, ⟨38, _⟩ => ⟨S2000000x1, .i32⟩
  | .hbm, ⟨39, _⟩ => ⟨S1, .i32⟩
  | .hbm, ⟨40, _⟩ => ⟨S_, .i32⟩
  | .hbm, ⟨41, _⟩ => ⟨S2000000x1, .i32⟩
  | .hbm, ⟨42, _⟩ => ⟨S2000000x1, .i1⟩
  | .hbm, ⟨43, _⟩ => ⟨S1x1, .i32⟩
  | .hbm, ⟨44, _⟩ => ⟨S2000000x1, .i32⟩
  | .hbm, ⟨45, _⟩ => ⟨S2000000x1, .i1⟩
  | .hbm, ⟨46, _⟩ => ⟨S2000000x1, .i1⟩
  | .hbm, ⟨47, _⟩ => ⟨S_, .i1⟩
  | .hbm, ⟨48, _⟩ => ⟨S2000000, .i1⟩
  | .hbm, ⟨49, _⟩ => ⟨S2000000x128, .f32⟩
  | .hbm, ⟨50, _⟩ => ⟨S2000000x128, .i1⟩
  | .hbm, ⟨51, _⟩ => ⟨S_, .f32⟩
  | .hbm, ⟨52, _⟩ => ⟨S2000000x128, .f32⟩
  | .hbm, ⟨53, _⟩ => ⟨S2000000x128, .f32⟩
  | .hbm, ⟨54, _⟩ => ⟨S_, .i32⟩
  | .hbm, ⟨55, _⟩ => ⟨S2000000, .i32⟩
  | .hbm, ⟨56, _⟩ => ⟨S2000000, .i1⟩
  | .hbm, ⟨57, _⟩ => ⟨S_, .i32⟩
  | .hbm, ⟨58, _⟩ => ⟨S2000000, .i32⟩
  | .hbm, ⟨59, _⟩ => ⟨S2000000, .i32⟩
  | .hbm, ⟨60, _⟩ => ⟨S2000000, .i32⟩
  | .hbm, ⟨61, _⟩ => ⟨S2000000x1, .i32⟩
  | .hbm, ⟨62, _⟩ => ⟨S1, .i32⟩
  | .hbm, ⟨63, _⟩ => ⟨S_, .i32⟩
  | .hbm, ⟨64, _⟩ => ⟨S2000000x1, .i32⟩
  | .hbm, ⟨65, _⟩ => ⟨S2000000x1, .i1⟩
  | .hbm, ⟨66, _⟩ => ⟨S1x1, .i32⟩
  | .hbm, ⟨67, _⟩ => ⟨S2000000x1, .i32⟩
  | .hbm, ⟨68, _⟩ => ⟨S2000000x1, .i1⟩
  | .hbm, ⟨69, _⟩ => ⟨S2000000x1, .i1⟩
  | .hbm, ⟨70, _⟩ => ⟨S_, .i1⟩
  | .hbm, ⟨71, _⟩ => ⟨S2000000, .i1⟩
  | .hbm, ⟨72, _⟩ => ⟨S2000000x128, .f32⟩
  | .hbm, ⟨73, _⟩ => ⟨S2000000x128, .i1⟩
  | .hbm, ⟨74, _⟩ => ⟨S_, .f32⟩
  | .hbm, ⟨75, _⟩ => ⟨S2000000x128, .f32⟩
  | .hbm, ⟨76, _⟩ => ⟨S2000000x128, .f32⟩
  | .hbm, ⟨77, _⟩ => ⟨S2000000x128, .f32⟩
  | .hbm, ⟨78, _⟩ => ⟨S2000000x128, .f32⟩
  | .hbm, ⟨79, _⟩ => ⟨S_, .i32⟩
  | .hbm, ⟨80, _⟩ => ⟨S_, .f32⟩
  | .hbm, ⟨81, _⟩ => ⟨S2015232x128, .f32⟩
  | .hbm, ⟨82, _⟩ => ⟨S2015232, .f32⟩
  | .hbm, ⟨83, _⟩ => ⟨S2000000, .f32⟩
  | .local _ .vmem, ⟨0, _⟩ => ⟨S16384x128, .f32⟩
  | .local _ .vmem, ⟨1, _⟩ => ⟨S16384x128, .f32⟩
  | .local _ .vmem, ⟨2, _⟩ => ⟨S16384, .f32⟩
  | .local _ .vmem, ⟨3, _⟩ => ⟨S16384, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_c : Ref sig .tc := ⟨.hbm, 79, rfl⟩
abbrev main_call3_v0 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x128_0 : S2000000.BroadcastsInDim S2000000x128 (![0] : Fin 1 → Fin S2000000x128.rank)
  bcast_S_S2000000x128 : S_.BroadcastsInDim S2000000x128 (![] : Fin 0 → Fin S2000000x128.rank)
  pads_S2000000x128_S2015232x128_0152320_000 : S2000000x128.Pads (![0, 0] : Fin 2 → Nat) ![15232, 0] ![0, 0] S2015232x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  reduces_S16384x128_S16384 : S16384x128.Reduces [1] S16384
  inb_S16384_S16384_0 : ∀ a, (![0] : Fin 1 → Nat) a + S16384.size a ≤ S16384.size a
  h_S16384 : 0 < S16384.numel
  slices_S2015232_S2000000_0 : S2015232.Slices ![0] S2000000
  gather_S100000x128_S2000000x1_S2000000x128_1_0_n_n_0_1_1128_wf : GatherDims.WF S100000x128 S2000000x1 S2000000x128 [1] [0] [] [0] [] 1 ![1, 128]
  gather_S1000x128_S2000000x1_S2000000x128_1_0_n_n_0_1_1128_wf : GatherDims.WF S1000x128 S2000000x1 S2000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S2015232x128.size a
  hwx0_0 : ∀ i : grid0.Coords, EltTy.bits .f32 = 32 ∨ (Rect.block (s := S2015232x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S2015232.size a
  hwx0_1 : ∀ i : grid0.Coords, EltTy.bits .f32 = 32 ∨ (Rect.block (s := S2015232) S16384.size (cc0_transform_1 i) (hinb0_1 i)).WholeWords (EltTy.packing .f32)

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def gather_S1000x128_S2000000x1_S2000000x128_1_0_n_n_0_1_1128 : GatherDims S1000x128 S2000000x1 S2000000x128 where
  offsetDims := [1]
  collapsedSliceDims := [0]
  operandBatchingDims := []
  startIndicesBatchingDims := []
  startIndexMap := [0]
  indexVectorDim := 1
  sliceSizes := ![1, 128]
  wf := gather_S1000x128_S2000000x1_S2000000x128_1_0_n_n_0_1_1128_wf

abbrev win0_0 : Pipeline.Window sig grid0 :=
  Pipeline.Window.ofSpec (Memref.whole main_v9) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x2000000 : Shape := ⟨2, ![2, 2000000]⟩
abbrev S2000000 : Shape := ⟨1, ![2000000]⟩
abbrev S1000x128 : Shape := ⟨2, ![1000, 128]⟩
abbrev S1x2000000 : Shape := ⟨2, ![1, 2000000]⟩
abbrev S_ : Shape := ⟨0, ![]⟩
abbrev S2000000x1 : Shape := ⟨2, ![2000000, 1]⟩
abbrev S2000000x128 : Shape := ⟨2, ![2000000, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S2000000, .i32⟩
  | .hbm, ⟨3, _⟩ => ⟨S1000x128, .f32⟩
  | .hbm, ⟨4, _⟩ => ⟨S1x2000000, .i32⟩
  | .hbm, ⟨5, _⟩ => ⟨S2000000, .i32⟩
  | .hbm, ⟨6, _⟩ => ⟨S_, .i32⟩
  | .hbm, ⟨7, _⟩ => ⟨S2000000, .i32⟩
  | .hbm, ⟨8, _⟩ => ⟨S2000000, .i1⟩
  | .hbm, ⟨9, _⟩ => ⟨S_, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S2000000x1, .i32⟩
  | .hbm, ⟨14, _⟩ => ⟨S2000000x128, .f32⟩
  | .hbm, ⟨15, _⟩ => ⟨S1x2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x128, .f32⟩
  | .hbm, ⟨26, _⟩ => ⟨S2000000x128, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x128, .f32⟩
  | .hbm, ⟨36, _⟩ => ⟨S2000000x128, .f32⟩
  | .hbm, ⟨37, _⟩ => ⟨S_, .f32⟩
  | .hbm, ⟨38, _⟩ => ⟨S2000000, .f32⟩
  | .hbm, ⟨39, _⟩ => ⟨S2000000, .f32⟩
  | .hbm, ⟨40, _⟩ => ⟨S2000000, .f32⟩
  | .hbm, ⟨41, _⟩ => ⟨S_, .f32⟩
  | .hbm, ⟨42, _⟩ => ⟨S2000000, .f32⟩
  | .hbm, ⟨43, _⟩ => ⟨S2000000, .f32⟩
  | .hbm, ⟨44, _⟩ => ⟨S_, .f32⟩
  | .hbm, ⟨45, _⟩ => ⟨S2000000, .f32⟩
  | .hbm, ⟨46, _⟩ => ⟨S2000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  reducesTo_S2000000x128_S2000000_d1 : S2000000x128.ReducesTo [1] S2000000
  h_S_ : 0 < S_.numel
  gather_S100000x128_S2000000x1_S2000000x128_1_0_n_n_0_1_1128_wf : GatherDims.WF S100000x128 S2000000x1 S2000000x128 [1] [0] [] [0] [] 1 ![1, 128]
  gather_S1000x128_S2000000x1_S2000000x128_1_0_n_n_0_1_1128_wf : GatherDims.WF S1000x128 S2000000x1 S2000000x128 [1] [0] [] [0] [] 1 ![1, 128]

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def gather_S1000x128_S2000000x1_S2000000x128_1_0_n_n_0_1_1128 : GatherDims S1000x128 S2000000x1 S2000000x128 where
  offsetDims := [1]
  collapsedSliceDims := [0]
  operandBatchingDims := []
  startIndicesBatchingDims := []
  startIndexMap := [0]
  indexVectorDim := 1
  sliceSizes := ![1, 128]
  wf := gather_S1000x128_S2000000x1_S2000000x128_1_0_n_n_0_1_1128_wf

class Facts : Prop extends Facts₀ where

variable [Facts]
-- ==== Proof.Score.lean ====
/-
  The score of one edge. Both programs end, per edge, with the logistic function of the sum over the 128 features
  of a row of products; this module names that function on the extended reals and records the one identity that
  joins the two spellings of the logistic: the kernel's single operation, which at the ideal instance is
  1 / (1 + exp (-s)) with the literal real 1, and the reference's own expansion into negate, exponential, add and
  divide, whose ones are the f32 pattern of 1.0 and whose sum starts from the f32 pattern of 0.0.
-/
import Idealize.ShloMosaic.PureOps.Ideal.Laws
import Idealize.ShloMosaic.Lib.ValueIdx

noncomputable section

namespace Cert.Score

open Idealize.ShloMosaic

/-- The f32 pattern of 1.0 denotes the extended real 1. -/
theorem ofBits_one_f32 : Ideal.ofBits .f32 0x3F800000#32 = 1 := by
  simp [Ideal.ofBits, Ideal.ieee, -EReal.coe_mul]; norm_num

/-- The score of a row of 128 products: the logistic of their sum. -/
def score (row : Fin 128 → EReal) : EReal := Ideal.logistic (∑ k : Fin 128, row k)

/-- The reference's expansion of the logistic, its literals read: 1 / (1 + exp (-(0 + Σ row))) is the score. -/
theorem host_expansion (row : Fin 128 → EReal) :
    Ideal.div (Ideal.ofBits .f32 0x3F800000#32)
        (Ideal.ofBits .f32 0x3F800000#32 + Ideal.exp (-(Ideal.ofBits .f32 0x00000000#32 + ∑ k : Fin 128, row k)))
      = score row := by
  rw [ofBits_one_f32, Ideal.ofBits_zero_f32, zero_add]; rfl

end Cert.Score

end
-- ==== Proof.RefScore.lean ====
/-
  The reference, read at an edge: its result at edge e is the score of row e of its product array
  z[src] * z[dst] * weight[type] — the host's sum over the feature axis is the initial 0.0 plus the sum of the
  128 products of the row, and negate, exponential, add 1.0 and divide 1.0 by it are the logistic's expansion.
  The three row gathers stay as the reference states them: the kernel's product array is compared with this one
  whole, so no gather is ever opened.
-/
import proofs.«413259_j14044543058209_3_alg».proof.Proof.Gen.ReferenceIdeal.Run
import proofs.«413259_j14044543058209_3_alg».proof.Proof.Gen.ReferenceIdeal.Read
import proofs.«413259_j14044543058209_3_alg».proof.Proof.Score

noncomputable section

namespace Cert.ReferenceIdeal.EdgeScore

open Cert.ReferenceIdeal Cert.ReferenceIdeal.Gen Cert.ReferenceIdeal.Read Idealize.ShloMosaic

/-- The reference's result at edge `i` is the score of row `i` of its product array. -/
theorem result_apply (x0 : (⟨S100000x128, .f32⟩ : BufTy).Contents (Elt Ideal)) (x1 : (⟨S2x2000000, .i32⟩ : BufTy).Contents (Elt Ideal))
    (x2 : (⟨S2000000, .i32⟩ : BufTy).Contents (Elt Ideal)) (x3 : (⟨S1000x128, .f32⟩ : BufTy).Contents (Elt Ideal)) (i : S2000000.Idx) :
    val_main_v33 (F := Ideal) x0 x1 x2 x3 i
      = Cert.Score.score (fun k => val_main_v26 (F := Ideal) x0 x1 x2 x3 (idx_main_v27 i k)) := by
  rw [val_main_v33_apply, val_main_v32_apply, val_main_cst_6_apply, val_main_v31_apply, val_main_v30_apply,
    val_main_cst_5_apply, val_main_v29_apply, val_main_v28_apply, val_main_v27_apply, val_main_cst_apply]
  simp only [Ideal.hostDivf_def, Ideal.addf_def, Ideal.hostUnary_exp_def, Ideal.hostNegf_def, Ideal.negf_def, Ideal.ofBits_def]
  exact Cert.Score.host_expansion _

end Cert.ReferenceIdeal.EdgeScore

end
-- ==== Proof.KernelProd.lean ====
import proofs.«413259_j14044543058209_3_alg».proof.Proof.Gen.KernelIdeal.Frame
import Idealize.ShloMosaic.Lib.StableHlo.Run

set_option maxRecDepth 16384

noncomputable section

namespace Cert.KernelIdeal.Staged

open Cert.KernelIdeal Cert.KernelIdeal.Gen
open Idealize.ShloMosaic Idealize.ShloMosaic.TcCoe Idealize.SL.Sem Idealize.ShloMosaic.StableHlo
variable {F : FTy → Type} [FloatOps F]

/-- Row 0 of the [2, 2000000] edge index: the source node of every edge. -/
def srcIdx (ei : IVec S2x2000000 32) : IVec S2000000 32 :=
  shapeCast _ (extractStridedSlice S1x2000000 ![0, 0] ei slices_S2x2000000_S1x2000000_0_0) shapeCasts_S1x2000000_S2000000

/-- Row 1: the destination node of every edge. -/
def dstIdx (ei : IVec S2x2000000 32) : IVec S2000000 32 :=
  shapeCast _ (extractStridedSlice S1x2000000 ![1, 0] ei slices_S2x2000000_S1x2000000_1_0) shapeCasts_S1x2000000_S2000000

/-- jnp's index normalisation: a negative index counts from the end of an axis of extent `n`. -/
def wrapIdx (n : BitVec 32) (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 n))) idx

/-- The normalised indices as the one-column start-index array a row gather takes. -/
def startCol (w : IVec S2000000 32) : IVec S2000000x1 32 :=
  broadcastInDim S2000000x1 ![0] bcast_S2000000_S2000000x1_0 w

/-- The fill mode's check, per edge: 0 ≤ start ≤ `hi`, the two comparisons joined and reduced over the unit column. -/
def inBounds (hi : BitVec 32) (s : IVec S2000000x1 32) : IVec S2000000 1 :=
  Host.reduce IntOp.andi
    (andi (cmpi .sge s (broadcastInDim S2000000x1 ![] bcast_S_S2000000x1 (constantI S_ 32 0#32)))
      (cmpi .sle s (broadcastInDim S2000000x1 ![0, 1] bcast_S1x1_S2000000x1_0_1
        (broadcastInDim S1x1 ![1] bcast_S1_S1x1_1 (constantI S1 32 hi)))))
    (constantI S_ 1 1#1) reducesTo_S2000000x1_S2000000_d1 h_S_

/-- The fill: the gathered rows where the check passed, the NaN pattern elsewhere. -/
def fillRows (mask : IVec S2000000 1) (rows : FVec F S2000000x128 .f32) : FVec F S2000000x128 .f32 :=
  select (broadcastInDim S2000000x128 ![0] bcast_S2000000_S2000000x128_0 mask) rows
    (broadcastInDim S2000000x128 ![] bcast_S_S2000000x128 (constant S_ .f32 0x7FC00000#32))

/-- jnp.take of rows of z (100000 rows). -/
def zRows (z : FVec F S100000x128 .f32) (idx : IVec S2000000 32) : FVec F S2000000x128 .f32 :=
  fillRows (inBounds 99999#32 (startCol (wrapIdx 100000#32 idx)))
    (Host.gather gather_S100000x128_S2000000x1_S2000000x128_1_0_n_n_0_1_1128 z (startCol (wrapIdx 100000#32 idx)))

/-- jnp.take of rows of weight (1000 rows). -/
def wRows (w : FVec F S1000x128 .f32) (idx : IVec S2000000 32) : FVec F S2000000x128 .f32 :=
  fillRows (inBounds 999#32 (startCol (wrapIdx 1000#32 idx)))
    (Host.gather gather_S1000x128_S2000000x1_S2000000x128_1_0_n_n_0_1_1128 w (startCol (wrapIdx 1000#32 idx)))

/-- The product array: z[src] * z[dst] * weight[type], feature by feature. -/
def prod (z : FVec F S100000x128 .f32) (ei : IVec S2x2000000 32) (et : IVec S2000000 32) (w : FVec F S1000x128 .f32) :
    FVec F S2000000x128 .f32 :=
  mulf (mulf (zRows z (srcIdx ei)) (zRows z (dstIdx ei))) (wRows w et)

/-- The product array padded with 15232 rows of the converted integer zero. -/
def padded (z : FVec F S100000x128 .f32) (ei : IVec S2x2000000 32) (et : IVec S2000000 32) (w : FVec F S1000x128 .f32) :
    FVec F S2015232x128 .f32 :=
  pad S2015232x128 ![0, 0] ![15232, 0] ![0, 0] (prod z ei et w) (sitofp .f32 (constantI S_ 32 0#32))
    pads_S2000000x128_S2015232x128_0152320_000 h_S_

/-! ## Typed references and their transports

The gathers and the padding are module-local functions: their operations read and write through references that carry
the tensor value's type, each value transported along the (computed) equation between the buffer's type and the
value's. Two transports along one equation cancel; at a literal reference each is the identity. -/

/-- A typed reference's two transports cancel (both are casts along the same type equation). -/
theorem ofBuf_toBuf {Val : EltTy → Type} {T : BufTy} (x : TRef sig T) (v : T.Contents Val) : x.ofBuf (x.toBuf v) = v := by
  obtain ⟨r, h, hd, hs⟩ := x
  subst h
  rfl

abbrev rArg0 : TRef sig ⟨S100000x128, .f32⟩ := .of main_arg0
abbrev rArg2 : TRef sig ⟨S2000000, .i32⟩ := .of main_arg2
abbrev rArg3 : TRef sig ⟨S1000x128, .f32⟩ := .of main_arg3
abbrev rV1 : TRef sig ⟨S2000000, .i32⟩ := .of main_v1
abbrev rV3 : TRef sig ⟨S2000000, .i32⟩ := .of main_v3
abbrev rV4 : TRef sig ⟨S2000000x128, .f32⟩ := .of main_v4
abbrev rV5 : TRef sig ⟨S2000000x128, .f32⟩ := .of main_v5
abbrev rV6 : TRef sig ⟨S2000000x128, .f32⟩ := .of main_v6
abbrev rV8 : TRef sig ⟨S2000000x128, .f32⟩ := .of main_v8
abbrev rV9 : TRef sig ⟨S2015232x128, .f32⟩ := .of main_v9
abbrev rC : TRef sig ⟨S_, .i32⟩ := .of main_c

section Literal
variable {Val : EltTy → Type}
theorem toBuf_v9 (v : (⟨S2015232x128, .f32⟩ : BufTy).Contents Val) : rV9.toBuf v = v := rfl
theorem ofBuf_v8 (v : (⟨S2000000x128, .f32⟩ : BufTy).Contents Val) : rV8.ofBuf v = v := rfl
theorem toBuf_v4 (v : (⟨S2000000x128, .f32⟩ : BufTy).Contents Val) : rV4.toBuf v = v := rfl
theorem toBuf_v5 (v : (⟨S2000000x128, .f32⟩ : BufTy).Contents Val) : rV5.toBuf v = v := rfl
theorem toBuf_v6 (v : (⟨S2000000x128, .f32⟩ : BufTy).Contents Val) : rV6.toBuf v = v := rfl
theorem ofBuf_c (v : (⟨S_, .i32⟩ : BufTy).Contents Val) : rC.ofBuf v = v := rfl
theorem ofBuf_arg0 (v : (⟨S100000x128, .f32⟩ : BufTy).Contents Val) : rArg0.ofBuf v = v := rfl
theorem ofBuf_arg2 (v : (⟨S2000000, .i32⟩ : BufTy).Contents Val) : rArg2.ofBuf v = v := rfl
theorem ofBuf_arg3 (v : (⟨S1000x128, .f32⟩ : BufTy).Contents Val) : rArg3.ofBuf v = v := rfl
theorem ofBuf_v1 (v : (⟨S2000000, .i32⟩ : BufTy).Contents Val) : rV1.ofBuf v = v := rfl
theorem ofBuf_v3 (v : (⟨S2000000, .i32⟩ : BufTy).Contents Val) : rV3.ofBuf v = v := rfl
end Literal

/-! ## The six stretches of host operations before the region, each over any contents -/

/-- The contents after two stretches run one after the other. -/
theorem after_append {Val : EltTy → Type} (l₁ l₂ : List (HloOp τ sig Val)) (X : Valuation τ sig Val) :
    after (l₁ ++ l₂) X = after l₂ (after l₁ X) := by
  induction l₁ generalizing X with
  | nil => rfl
  | cons op l ih => rw [List.cons_append, after_cons, after_cons, ih]

section Stretches
variable (X : Valuation τ sig (Elt F))

/-! The two index rows cut out of the edge index. -/
theorem s0_v1 : after hostOps0 X (Proc.devRef .tc main_v1) = srcIdx (X (Proc.devRef .tc main_arg1)) := by
  simp only [hostOps0]; after_results_simp; rfl
theorem s0_v3 : after hostOps0 X (Proc.devRef .tc main_v3) = dstIdx (X (Proc.devRef .tc main_arg1)) := by
  simp only [hostOps0]; after_results_simp; rfl
theorem s0_arg0 : after hostOps0 X (Proc.devRef .tc main_arg0) = X (Proc.devRef .tc main_arg0) := by
  simp only [hostOps0]; after_results_simp
theorem s0_arg2 : after hostOps0 X (Proc.devRef .tc main_arg2) = X (Proc.devRef .tc main_arg2) := by
  simp only [hostOps0]; after_results_simp
theorem s0_arg3 : after hostOps0 X (Proc.devRef .tc main_arg3) = X (Proc.devRef .tc main_arg3) := by
  simp only [hostOps0]; after_results_simp

/-! The take of z at the source nodes. -/
set_option maxHeartbeats 1000000 in
theorem s1_v4 : after hostOps0_1 X (Proc.devRef .tc main_v4)
    = rV4.toBuf (zRows (rArg0.ofBuf (X (Proc.devRef .tc main_arg0))) (rV1.ofBuf (X (Proc.devRef .tc main_v1)))) := by
  simp only [hostOps0_1]; after_results_simp; simp only [ofBuf_toBuf]; rfl
set_option maxHeartbeats 1000000 in
theorem s1_arg0 : after hostOps0_1 X (Proc.devRef .tc main_arg0) = X (Proc.devRef .tc main_arg0) := by
  simp only [hostOps0_1]; after_results_simp
set_option maxHeartbeats 1000000 in
theorem s1_v3 : after hostOps0_1 X (Proc.devRef .tc main_v3) = X (Proc.devRef .tc main_v3) := by
  simp only [hostOps0_1]; after_results_simp
set_option maxHeartbeats 1000000 in
theorem s1_arg2 : after hostOps0_1 X (Proc.devRef .tc main_arg2) = X (Proc.devRef .tc main_arg2) := by
  simp only [hostOps0_1]; after_results_simp
set_option maxHeartbeats 1000000 in
theorem s1_arg3 : after hostOps0_1 X (Proc.devRef .tc main_arg3) = X (Proc.devRef .tc main_arg3) := by
  simp only [hostOps0_1]; after_results_simp

/-! The take of z at the destination nodes. -/
set_option maxHeartbeats 1000000 in
theorem s2_v5 : after hostOps0_2 X (Proc.devRef .tc main_v5)
    = rV5.toBuf (zRows (rArg0.ofBuf (X (Proc.devRef .tc main_arg0))) (rV3.ofBuf (X (Proc.devRef .tc main_v3)))) := by
  simp only [hostOps0_2]; after_results_simp; simp only [ofBuf_toBuf]; rfl
set_option maxHeartbeats 1000000 in
theorem s2_v4 : after hostOps0_2 X (Proc.devRef .tc main_v4) = X (Proc.devRef .tc main_v4) := by
  simp only [hostOps0_2]; after_results_simp
set_option maxHeartbeats 1000000 in
theorem s2_arg2 : after hostOps0_2 X (Proc.devRef .tc main_arg2) = X (Proc.devRef .tc main_arg2) := by
  simp only [hostOps0_2]; after_results_simp
set_option maxHeartbeats 1000000 in
theorem s2_arg3 : after hostOps0_2 X (Proc.devRef .tc main_arg3) = X (Proc.devRef .tc main_arg3) := by
  simp only [hostOps0_2]; after_results_simp

/-! The take of weight at the edge types. -/
set_option maxHeartbeats 1000000 in
theorem s3_v6 : after hostOps0_3 X (Proc.devRef .tc main_v6)
    = rV6.toBuf (wRows (rArg3.ofBuf (X (Proc.devRef .tc main_arg3))) (rArg2.ofBuf (X (Proc.devRef .tc main_arg2)))) := by
  simp only [hostOps0_3]; after_results_simp; simp only [ofBuf_toBuf]; rfl
set_option maxHeartbeats 1000000 in
theorem s3_v4 : after hostOps0_3 X (Proc.devRef .tc main_v4) = X (Proc.devRef .tc main_v4) := by
  simp only [hostOps0_3]; after_results_simp
set_option maxHeartbeats 1000000 in
theorem s3_v5 : after hostOps0_3 X (Proc.devRef .tc main_v5) = X (Proc.devRef .tc main_v5) := by
  simp only [hostOps0_3]; after_results_simp

/-! The two products, and the integer zero the padding converts. -/
theorem s4_v8 : after hostOps0_4 X (Proc.devRef .tc main_v8)
    = mulf (mulf (X (Proc.devRef .tc main_v4)) (X (Proc.devRef .tc main_v5))) (X (Proc.devRef .tc main_v6)) := by
  simp only [hostOps0_4]; after_results_simp
theorem s4_c : after hostOps0_4 X (Proc.devRef .tc main_c) = constantI S_ 32 0#32 := by
  simp only [hostOps0_4]; after_results_simp

/-! The padding. -/
theorem s5_v9 : after hostOps0_5 X (Proc.devRef .tc main_v9)
    = rV9.toBuf (pad S2015232x128 ![0, 0] ![15232, 0] ![0, 0] (rV8.ofBuf (X (Proc.devRef .tc main_v8)))
        (sitofp .f32 (rC.ofBuf (X (Proc.devRef .tc main_c)))) pads_S2000000x128_S2015232x128_0152320_000 h_S_) := by
  simp only [hostOps0_5]; after_results_simp; simp only [ofBuf_toBuf]

end Stretches

/-! ## The region's input array -/

variable (m : (ℓ : Loc nD τ sig) → Buf (Elt F) ℓ)

/-- The region's input array is the padded product array of the four arguments as launched. -/
theorem input_eq (c : Dev nD) :
    (V m c main_v9 : S2015232x128.Idx → Elt F .f32)
      = padded (m (c, Proc.devRef .tc main_arg0)) (m (c, Proc.devRef .tc main_arg1))
          (m (c, Proc.devRef .tc main_arg2)) (m (c, Proc.devRef .tc main_arg3)) := by
  dsimp only [V, V0]
  simp only [List.flatten_cons, List.flatten_nil, List.append_nil, after_append]
  rw [s5_v9, s4_v8, s4_c, s3_v6, s3_v4, s3_v5, s2_v5, s2_v4, s2_arg2, s2_arg3, s1_v4, s1_arg0, s1_v3, s1_arg2, s1_arg3,
    s0_v1, s0_v3, s0_arg0, s0_arg2, s0_arg3]
  rw [toBuf_v9, ofBuf_v8, toBuf_v4, toBuf_v5, toBuf_v6, ofBuf_c, ofBuf_arg0, ofBuf_arg2, ofBuf_arg3, ofBuf_v1, ofBuf_v3]
  rfl

end Cert.KernelIdeal.Staged

end
-- ==== Proof.KernelBlocks.lean ====
/-
  The region, read as one function of its input array. The kernel's grid has 123 points; point t loads rows
  16384 t … 16384 t + 16383 of the padded product array (all 128 features), sums each row over the features,
  applies the logistic function, and writes the 16384 results back as entries 16384 t … 16384 t + 16383 of the
  output vector. So the output vector ends holding, at every row r of the padded array, the score of that row:
  the 123 blocks tile the 2015232 entries, and entry r lies in the block of point r / 16384.
-/
import proofs.«413259_j14044543058209_3_alg».proof.Proof.Gen.KernelIdeal.Frame
import proofs.«413259_j14044543058209_3_alg».proof.Proof.Score
import Idealize.ShloMosaic.Lib.Pipeline.Value
import Idealize.ShloMosaic.PureOps.Ideal.Laws
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- Every row's score: the whole-array function the output vector ends holding. -/
def rowScores (X : S2015232x128.Idx → EReal) : S2015232.Idx → EReal :=
  fun r => Cert.Score.score (fun k => X (ix2 (r 0) k))

/-- The body's payload is its three operations: the shape cast of the loaded block to its own shape, the lane sum
    over the feature axis from the zero pattern, the logistic. -/
theorem pay_eq (x0 : Vec Ideal S16384x128 .f32) :
    k0_pay1 (F := Ideal) x0 = logistic (multiReduction (F := Ideal) .add [1] S16384
      (shapeCast S16384x128 x0 shapeCasts_S16384x128_S16384x128) 0x00000000#32 reduces_S16384x128_S16384 (.inl rfl) rfl) := rfl

/-- The lane sum of a block at row `j`: the sum of the row's 128 entries. -/
theorem laneSum_apply (x0 : FVec Ideal S16384x128 .f32) (j : S16384.Idx) (hφ : FKind.Formats .f32)
    (hacc : (0x00000000#32 : BitVec 32) = FKind.add.neutral .f32 hφ) :
    multiReduction (F := Ideal) .add [1] S16384 x0 0x00000000#32 reduces_S16384x128_S16384 hφ hacc j
      = ∑ k : Fin 128, x0 (ix2 (j 0) k) := by
  refine (Ideal.multiReduction_add_single (φ := .f32) x0 0x00000000#32 reduces_S16384x128_S16384 hφ hacc j).trans ?_
  refine Finset.sum_congr rfl fun k _ => ?_
  exact congrArg x0 (funext fun a => Fin.ext (by match a with | ⟨0, _⟩ => rfl | ⟨1, _⟩ => rfl))

/-- The body's result at row `j` of a block: the score of that row of the loaded block. -/
theorem pay_apply (x0 : Vec Ideal S16384x128 .f32) (j : S16384.Idx) :
    k0_pay1 (F := Ideal) x0 j = Cert.Score.score (fun k => x0 (ix2 (j 0) k)) := by
  rw [pay_eq, shapeCast_self]
  simp only [logistic, Ideal.logistic_def]
  unfold Cert.Score.score
  exact congrArg Ideal.logistic (laneSum_apply x0 j _ _)

theorem zero_offsets2 : (![0, 0] : Fin 2 → Nat) = fun _ => 0 := funext fun a => by fin_cases a <;> rfl
theorem zero_offsets1 : (![0] : Fin 1 → Nat) = fun _ => 0 := funext fun a => by fin_cases a <;> rfl

set_option maxHeartbeats 1000000 in
/-- The printed index maps, decided over the 123 points: the input block's row index is the output block's index,
    its column index is 0, and the output's block index stays below 123. -/
theorem index_facts : ∀ t : Fin cfg0.N, win0_0.index t (0 : Fin 2) = win0_1.index t (0 : Fin 1)
    ∧ win0_0.index t (1 : Fin 2) = 0 ∧ win0_1.index t (0 : Fin 1) ≤ 122 :=
  (by decide +kernel : ∀ t : Fin grid0.N, _)

set_option maxHeartbeats 1000000 in
/-- Every one of the 123 output blocks is some point's. -/
theorem index_onto : ∀ q : Fin 123, ∃ t : Fin cfg0.N, win0_1.index t = ![q.val] :=
  (by decide +kernel : ∀ q : Fin 123, ∃ t : Fin grid0.N, win0_1.index t = ![q.val])

set_option maxHeartbeats 2000000 in
/-- What point `t` writes back is block `t` of the rows' scores of the input array as the region finds it. -/
theorem flushed_eq (c : Dev nD) (t : Fin cfg0.N) :
    (dats m 0 c).flushed 1 t = ((cfg0.win 1).blk t).view.read (Elt Ideal) (rowScores (V m c main_v9)) := by
  show (cfg0.win 1).cut (grid0.coords t) ((dats m 0 c).after 1 t) = _
  rw [after0_1]
  unfold out0_1
  rw [View.canon_unit_zero zero_offsets1]
  simp only [View.ld_unit_zero (S := S16384x128) zero_offsets2]
  obtain ⟨e0, e1, e2⟩ := index_facts t
  funext j
  show k0_pay1 (F := Ideal) (iblk m c 0 t) j = rowScores (V m c main_v9) (((cfg0.win 1).blk t).view.emb j)
  rw [pay_apply]
  unfold rowScores
  refine congrArg Cert.Score.score (funext fun k => ?_)
  show V m c main_v9 (((cfg0.win 0).blk t).view.emb (ix2 (j 0) k)) = V m c main_v9 (ix2 ((((cfg0.win 1).blk t).view.emb j) 0) k)
  refine congrArg (V m c main_v9) (funext fun a => Fin.ext ?_)
  match a with
  | ⟨0, _⟩ =>
    show win0_0.index t (0 : Fin 2) * 16384 + 1 * (j 0).val = win0_1.index t (0 : Fin 1) * 16384 + 1 * (j 0).val
    omega
  | ⟨1, _⟩ =>
    show win0_0.index t (1 : Fin 2) * 128 + 1 * k.val = k.val
    omega

/-- An entry of the output vector is in point `t`'s block iff it lies in that block's range of 16384 entries. -/
theorem mem_blk (t : Fin cfg0.N) (i : S2015232.Idx) :
    i ∈ ((cfg0.win 1).blk t).view.set ↔ ∀ a : Fin 1, win0_1.index t a * S16384.size a ≤ (i a).val
      ∧ (i a).val < win0_1.index t a * S16384.size a + S16384.size a := by
  show i ∈ ((View.whole main_v10).slice (win0_1.rect t)).set ↔ _
  rw [View.set_slice_whole, Rect.mem_set_unit]
  exact Iff.rfl

/-- Every entry is in the block of the point its row index divided by 16384 names. -/
theorem covered (i : S2015232.Idx) :
    ∃ t : Fin cfg0.N, (cfg0.win 1).flush t = true ∧ i ∈ ((cfg0.win 1).blk t).view.set := by
  have hi : (i 0).val < 2015232 := (i 0).isLt
  obtain ⟨t, ht⟩ := index_onto ⟨(i 0).val / 16384, by omega⟩
  have q0 : win0_1.index t (0 : Fin 1) = (i 0).val / 16384 := congrFun ht 0
  refine ⟨t, flush0_1 t, ?_⟩
  rw [mem_blk]
  intro a
  match a with
  | ⟨0, _⟩ =>
    show win0_1.index t (0 : Fin 1) * 16384 ≤ (i 0).val ∧ (i 0).val < win0_1.index t (0 : Fin 1) * 16384 + 16384
    omega

/-- The output vector after the region: every row's score. -/
theorem final (c : Dev nD) : (dats m 0 c).arrAt 1 cfg0.N = rowScores (V m c main_v9) :=
  (dats m 0 c).arrAt_eq_of_cover 1 (rowScores (V m c main_v9)) (fun t _ => flushed_eq m c t) covered

end Cert.KernelIdeal.Blocks

end
-- ==== Proof.KernelRun.lean ====
/-
  The kernel's run, read: every weakly fair execution ends with the result vector holding, at every edge e, the score
  of row e of the product array z[src] * z[dst] * weight[type] as the kernel stages it, and the four arguments
  unchanged. After the region the program keeps the first 2000000 entries of the region's output vector; entry e of
  that vector is the score of row e of the padded product array, and a row below 2000000 of the padded array is the
  product array's own row (the padding only adds rows 2000000 … 2015231, which the slice drops).
-/
import proofs.«413259_j14044543058209_3_alg».proof.Proof.KernelProd
import proofs.«413259_j14044543058209_3_alg».proof.Proof.KernelBlocks

set_option maxRecDepth 16384

noncomputable section

namespace Cert.KernelIdeal.Scores

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

/-- The score of every edge: the whole-vector function of a product array. -/
def edgeScores (P : FVec Ideal S2000000x128 .f32) : S2000000.Idx → EReal :=
  fun e => Cert.Score.score (fun k => P (ix2 (e 0) k))

/-- Row `r` of the padded array, for a row index below 2000000, is row `r` of the array that was padded. -/
theorem pad_row (P : FVec Ideal S2000000x128 .f32) (v : FVec Ideal S_ .f32) (r : Fin 2015232) (e : Fin 2000000) (hr : r.val = e.val)
    (k : Fin 128) :
    pad S2015232x128 ![0, 0] ![15232, 0] ![0, 0] P v pads_S2000000x128_S2015232x128_0152320_000 h_S_ (ix2 r k) = P (ix2 e k) := by
  have he : e.val < 2000000 := e.isLt
  have hk : k.val < 128 := k.isLt
  unfold pad
  split
  · refine congrArg P (funext fun a => Fin.ext ?_)
    match a with
    | ⟨0, _⟩ => show (r.val - 0) / (0 + 1) = e.val; omega
    | ⟨1, _⟩ => show (k.val - 0) / (0 + 1) = k.val; omega
  · rename_i hn
    refine absurd (fun a => ?_) hn
    match a with
    | ⟨0, _⟩ =>
      exact ⟨Nat.zero_le _, by show (r.val - 0) % (0 + 1) = 0; omega, by show (r.val - 0) / (0 + 1) < 2000000; omega⟩
    | ⟨1, _⟩ =>
      exact ⟨Nat.zero_le _, by show (k.val - 0) % (0 + 1) = 0; omega, by show (k.val - 0) / (0 + 1) < 128; omega⟩

/-- The first 2000000 of the padded array's row scores are the product array's edge scores. -/
theorem slice_rowScores (P : FVec Ideal S2000000x128 .f32) (v : FVec Ideal S_ .f32) :
    extractStridedSlice S2000000 ![0]
        (Blocks.rowScores (pad S2015232x128 ![0, 0] ![15232, 0] ![0, 0] P v pads_S2000000x128_S2015232x128_0152320_000 h_S_))
        slices_S2015232_S2000000_0
      = edgeScores P := by
  funext e
  unfold extractStridedSlice Blocks.rowScores edgeScores
  refine congrArg Cert.Score.score (funext fun k => ?_)
  exact pad_row P v _ (e 0) (by show 0 + (e 0).val = (e 0).val; omega) k

variable (m : (ℓ : Loc nD τ sig) → Buf (Elt Ideal) ℓ) (ρ : Dev nD → PrngReg)

/-- What the lines after the region leave in the result buffer: the slice of the region's output vector. -/
theorem tail_eq (c : Dev nD) :
    Pipeline.afterTail₀ cfgs (dats m) 0 (V0 m) [hostOps1] c main_v11
      = extractStridedSlice S2000000 ![0] (Blocks.rowScores (V m c main_v9)) slices_S2015232_S2000000_0 := by
  unfold Pipeline.afterTail₀
  show StableHlo.after hostOps1 _ (Proc.devRef .tc main_v11) = _
  after_results
  exact congrArg (fun X => extractStridedSlice S2000000 ![0] X slices_S2015232_S2000000_0)
    ((Pipeline.withArrays_arr spec0 launch0.win.arr_inj c (V0 m c) (fun w => (dats m 0 c).arrAt w cfg0.N) 1).trans (Blocks.final m c))

/-- The kernel's product array of the four arguments as launched. -/
abbrev prodOf (c : Dev nD) : FVec Ideal S2000000x128 .f32 :=
  Staged.prod (m ((c : Thread nD τ).loc main_arg0)) (m ((c : Thread nD τ).loc main_arg1))
    (m ((c : Thread nD τ).loc main_arg2)) (m ((c : Thread nD τ).loc main_arg3))

/-- The result buffer after the run: the edge scores of the kernel's product array. -/
theorem result_eq (c : Dev nD) :
    Pipeline.afterTail₀ cfgs (dats m) 0 (V0 m) [hostOps1] c main_v11 = edgeScores (prodOf m c) := by
  rw [tail_eq, Staged.input_eq]
  exact slice_rowScores _ _

/-- The run, re-posted: the result at the edge scores, the arguments unchanged. -/
theorem run : θ_run defs (onTc (τ := τ) (main (F := Ideal))) ⟨m, fun _ => 0, ρ⟩ fun r => ∀ c : Dev nD,
      r.2.mem ((c.tc : Thread nD τ).loc main_v11) = edgeScores (prodOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v11 (Pipeline.mem_restRefs_of main_v11 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Scores

end
-- ==== Proof.LibAllOnes.lean ====
/-
  A one-bit mask that is all ones. A host reduction by `and` from the constant 1 over an array of one-bit words
  every one of which is 1 is 1 at every result index (the converse of reading such a reduction back); a select on an
  all-ones mask keeps its first operand; and the signed comparisons that say a 32-bit word lies in [0, n): such a
  word is not negative, so an index normalisation that adds the extent to negative words leaves it alone, and it is
  at most n - 1.
-/
import Idealize.ShloMosaic.Lib.ReduceAll
import Idealize.ShloMosaic.Lib.ValueIdx

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    rw [List.foldl_cons]
    exact foldl_andi_of_all f l _ (andi_eq_one.2 ⟨h, hl a (List.mem_cons_self ..)⟩) fun n hn => hl n (List.mem_cons_of_mem _ hn)

/-- A word that is not negative is not below zero: the normalisation's condition is not 1. -/
theorem slt_zero_ne_one {w : BitVec 32} (h0 : cmpi .sge w 0#32 = 1#1) : ¬ cmpi .slt w 0#32 = 1#1 := by
  rw [cmpi_sge] at h0
  rw [cmpi_slt]
  omega

/-- A word below `n` is at most `hi` when `hi` is `n - 1`. -/
theorem sle_pred_of_slt {w n hi : BitVec 32} (hhi : hi.toInt + 1 = n.toInt) (hn : cmpi .slt w n = 1#1) :
    cmpi .sle w hi = 1#1 := by
  rw [cmpi_slt] at hn
  rw [cmpi_sle]
  omega

end IntOp

namespace Scalar

/-- jnp's index normalisation (a negative index is increased by the extent) leaves a word in [0, n) alone. -/
theorem select_wrap_of_nonneg {w n : BitVec 32} (h0 : IntOp.cmpi .sge w 0#32 = 1#1) :
    Scalar.select (IntOp.cmpi .slt w 0#32) (IntOp.addi w n) w = w :=
  if_neg (IntOp.slt_zero_ne_one h0)

end Scalar

namespace Host

variable {s t u : Shape} {axes : List (Fin s.rank)}

/-- `jnp.all` of an all-ones array: a reduce by `and` from an initial 1 over one-bit words that are all 1 is 1 at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun n _ => hx n

end Host

/-- A select whose one-bit mask is 1 at an index keeps its first operand there. -/
theorem select_apply_of_one {s : Shape} {α : Type} (c : IVec s 1) (a b : s.Idx → α) (i : s.Idx) (h : c i = 1#1) :
    select c a b i = a i := by
  show Scalar.select (c i) (a i) (b i) = a i
  rw [h]
  exact ValueIdx.select_one _ _

end Idealize.ShloMosaic
-- ==== Proof.InRange.lean ====
/-
  In-range indices. The precondition says every entry of the edge index lies in [0, 100000) and every edge type in
  [0, 1000), as signed 32-bit words. On such indices jnp's normalisation of negative indices does nothing, so the
  start index of every gathered row is the index itself and lies in [0, extent - 1]: the kernel's in-bounds mask is
  1 at every edge, its fill never replaces a row, and each of its three takes is the plain row gather the reference
  performs on the same start indices. So the kernel's product array IS the reference's.
-/
import proofs.«413259_j14044543058209_3_alg».proof.Proof.KernelProd
import proofs.«413259_j14044543058209_3_alg».proof.Proof.Gen.ReferenceIdeal.Read
import proofs.«413259_j14044543058209_3_alg».proof.Proof.Gen.Pre_finite_inputs
import proofs.«413259_j14044543058209_3_alg».proof.Proof.LibAllOnes

set_option maxRecDepth 16384

noncomputable section

namespace Cert.InRange

open Idealize.ShloMosaic Idealize.ShloMosaic.ValueIdx
open Cert.KernelIdeal Cert.KernelIdeal.Staged

/-- The ranges the precondition states: every edge-index entry in [0, 100000), every edge type in [0, 1000). -/
def Ranges (ei : IVec S2x2000000 32) (et : IVec S2000000 32) : Prop :=
  (∀ i, IntOp.cmpi .sge (ei i) 0#32 = 1#1 ∧ IntOp.cmpi .slt (ei i) 100000#32 = 1#1)
    ∧ ∀ i, IntOp.cmpi .sge (et i) 0#32 = 1#1 ∧ IntOp.cmpi .slt (et i) 1000#32 = 1#1

/-- The precondition, read: its last two conjuncts are `jnp.all` of the two range checks. -/
theorem ranges_of_pre (z : FVec Ideal S100000x128 .f32) (ei : IVec S2x2000000 32) (et : IVec S2000000 32)
    (w : FVec Ideal S1000x128 .f32) (h : Cert.Pre_finite_inputs.fn (F := Ideal) z ei et w = fun _ => 1#1) : Ranges ei et := by
  have e := congrFun h ix0
  unfold Cert.Pre_finite_inputs.fn Cert.Pre_finite_inputs.fn_part1 at e
  dsimp only at e
  obtain ⟨h15, h21⟩ := IntOp.andi_eq_one.1 e
  obtain ⟨_, h14⟩ := IntOp.andi_eq_one.1 h15
  haveI : Subsingleton Cert.Pre_finite_inputs.S_.Idx := ⟨fun a b => funext fun d => d.elim0⟩
  exact ⟨fun i => IntOp.andi_eq_one.1 (Host.reduce_andi_all _ _ _ _ _ h14 i),
    fun i => IntOp.andi_eq_one.1 (Host.reduce_andi_all _ _ _ _ _ h21 i)⟩

/-- On indices in [0, n) the in-bounds mask of the normalised start indices is 1 at every edge (`hi` is n - 1). -/
theorem inBounds_one (n hi : BitVec 32) (hhi : hi.toInt + 1 = n.toInt) (idx : IVec S2000000 32)
    (hidx : ∀ e, IntOp.cmpi .sge (idx e) 0#32 = 1#1 ∧ IntOp.cmpi .slt (idx e) n = 1#1) (e : S2000000.Idx) :
    inBounds hi (startCol (wrapIdx n idx)) e = 1#1 := by
  have key : ∀ w : BitVec 32, IntOp.cmpi .sge w 0#32 = 1#1 → IntOp.cmpi .slt w n = 1#1 →
      IntOp.andi (IntOp.cmpi .sge (Scalar.select (IntOp.cmpi .slt w 0#32) (IntOp.addi w n) w) 0#32)
        (IntOp.cmpi .sle (Scalar.select (IntOp.cmpi .slt w 0#32) (IntOp.addi w n) w) hi) = 1#1 := by
    intro w h0 hn
    rw [Scalar.select_wrap_of_nonneg h0]
    exact IntOp.andi_eq_one.2 ⟨h0, IntOp.sle_pred_of_slt hhi hn⟩
  unfold inBounds
  refine Host.reduce_andi_of_all _ _ _ _ rfl (fun i => ?_) e
  exact key _ (hidx _).1 (hidx _).2

/-- With the mask all ones the fill keeps every gathered row. -/
theorem fillRows_of_ones (mask : IVec S2000000 1) (hmask : ∀ e, mask e = 1#1) (rows : FVec Ideal S2000000x128 .f32) :
    fillRows mask rows = rows := by
  funext i
  unfold fillRows
  exact select_apply_of_one _ _ _ i (hmask _)

/-- The take of rows of z on indices in [0, 100000) is the row gather at the normalised start indices. -/
theorem zRows_eq (z : FVec Ideal S100000x128 .f32) (idx : IVec S2000000 32)
    (hidx : ∀ e, IntOp.cmpi .sge (idx e) 0#32 = 1#1 ∧ IntOp.cmpi .slt (idx e) 100000#32 = 1#1) :
    zRows z idx = Host.gather gather_S100000x128_S2000000x1_S2000000x128_1_0_n_n_0_1_1128 z (startCol (wrapIdx 100000#32 idx)) := by
  unfold zRows
  exact fillRows_of_ones _ (inBounds_one 100000#32 99999#32 (by decide) idx hidx) _

/-- The take of rows of weight on indices in [0, 1000) likewise. -/
theorem wRows_eq (w : FVec Ideal S1000x128 .f32) (idx : IVec S2000000 32)
    (hidx : ∀ e, IntOp.cmpi .sge (idx e) 0#32 = 1#1 ∧ IntOp.cmpi .slt (idx e) 1000#32 = 1#1) :
    wRows w idx = Host.gather gather_S1000x128_S2000000x1_S2000000x128_1_0_n_n_0_1_1128 w (startCol (wrapIdx 1000#32 idx)) := by
  unfold wRows
  exact fillRows_of_ones _ (inBounds_one 1000#32 999#32 (by decide) idx hidx) _

/-- Row 0 and row 1 of the edge index inherit the range of its entries. -/
theorem src_range (ei : IVec S2x2000000 32)
    (h : ∀ i, IntOp.cmpi .sge (ei i) 0#32 = 1#1 ∧ IntOp.cmpi .slt (ei i) 100000#32 = 1#1) (e : S2000000.Idx) :
    IntOp.cmpi .sge (srcIdx ei e) 0#32 = 1#1 ∧ IntOp.cmpi .slt (srcIdx ei e) 100000#32 = 1#1 := h _
theorem dst_range (ei : IVec S2x2000000 32)
    (h : ∀ i, IntOp.cmpi .sge (ei i) 0#32 = 1#1 ∧ IntOp.cmpi .slt (ei i) 100000#32 = 1#1) (e : S2000000.Idx) :
    IntOp.cmpi .sge (dstIdx ei e) 0#32 = 1#1 ∧ IntOp.cmpi .slt (dstIdx ei e) 100000#32 = 1#1 := h _

/-- Under the ranges the kernel's product array is the reference's: the same three row gathers at the same start
    indices, multiplied in the same order. -/
theorem prod_eq (z : FVec Ideal S100000x128 .f32) (ei : IVec S2x2000000 32) (et : IVec S2000000 32)
    (w : FVec Ideal S1000x128 .f32) (hr : Ranges ei et) :
    prod (F := Ideal) z ei et w = Cert.ReferenceIdeal.Read.val_main_v26 (F := Ideal) z ei et w := by
  unfold prod
  rw [zRows_eq z (srcIdx ei) (src_range ei hr.1), zRows_eq z (dstIdx ei) (dst_range ei hr.1), wRows_eq w et hr.2]
  rfl

end Cert.InRange

end
-- ==== Proof.lean ====
/-
  Edge scores of a multi-relational inner-product decoder:
      out[e] = logistic( Σ_d  z[src e, d] · z[dst e, d] · weight[type e, d] ),     e < 2000000,  d < 128,
  the kernel against its jnp reference, at the ideal instance (floats are extended reals, operations exact).

  The two programs compute the same thing in different arrangements. The reference gathers the three rows per edge by
  plain indexing (a negative index counts from the end; the gather itself clamps), multiplies them, sums each row over
  the 128 features from 0.0 and applies 1 / (1 + exp (-s)). The kernel gathers the same rows with jnp.take in its
  fill mode — the same normalisation of negative indices, then a row whose start index is outside [0, extent - 1] is
  replaced by the NaN pattern —, multiplies them in the same order, pads the product array with zero rows to 123
  blocks of 16384 rows, and a one-axis grid of 123 points sums each row of its block over the features, applies the
  logistic operation and writes the 16384 scores back; the first 2000000 scores are the result.

  Where the two differ is only the fill: on an index outside its table the kernel's row is the NaN pattern (at this
  instance the junk value -∞, which makes the score 0) while the reference's is a clamped row. The statement therefore
  carries the domain the reference's indexing presupposes: every edge-index entry in [0, 100000) and every edge type in
  [0, 1000). On that domain the in-bounds mask is all ones, each take is the reference's gather, the product arrays
  coincide, the lane sum and the host's sum are the same finite sum of 128 products, and the logistic operation is its
  own expansion. No law of the extended reals beyond 0 + x = x is used, so the finiteness of z and weight is never opened.

  The three frames are the generated ones (the reference's is its generated run with the result dropped), and the
  idealization rewrote nothing, so its claim is trivial.
-/
import proofs.«413259_j14044543058209_3_alg».proof.Defs
import proofs.«413259_j14044543058209_3_alg».proof.Proof.Gen.Kernel
import proofs.«413259_j14044543058209_3_alg».proof.Proof.Gen.Kernel.Skeleton
import proofs.«413259_j14044543058209_3_alg».proof.Proof.Gen.Kernel.Launch
import proofs.«413259_j14044543058209_3_alg».proof.Proof.Gen.Kernel.Points
import proofs.«413259_j14044543058209_3_alg».proof.Proof.Gen.Kernel.Frame
import proofs.«413259_j14044543058209_3_alg».proof.Proof.Gen.KernelIdeal
import proofs.«413259_j14044543058209_3_alg».proof.Proof.Gen.KernelIdeal.Skeleton
import proofs.«413259_j14044543058209_3_alg».proof.Proof.Gen.KernelIdeal.Launch
import proofs.«413259_j14044543058209_3_alg».proof.Proof.Gen.KernelIdeal.Points
import proofs.«413259_j14044543058209_3_alg».proof.Proof.Gen.KernelIdeal.Frame
import proofs.«413259_j14044543058209_3_alg».proof.Proof.Gen.ReferenceIdeal
import proofs.«413259_j14044543058209_3_alg».proof.Proof.Gen.ReferenceIdeal.Run
import proofs.«413259_j14044543058209_3_alg».proof.Proof.Gen.ReferenceIdeal.Read
import proofs.«413259_j14044543058209_3_alg».proof.Proof.Gen.Pre_finite_inputs
import proofs.«413259_j14044543058209_3_alg».proof.Proof.RefScore
import proofs.«413259_j14044543058209_3_alg».proof.Proof.KernelRun
import proofs.«413259_j14044543058209_3_alg».proof.Proof.InRange
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same score at every edge: the kernel's result is the edge scores of its product array,
    the reference's at edge e the score of row e of its own, and under the precondition's index ranges the two product
    arrays are one. -/
theorem algebraic : Cert.algebraic_KernelIdeal_ReferenceIdeal := by
  intro m ρ m' ρ' hpre hagree
  refine ⟨fun c => Cert.KernelIdeal.Scores.edgeScores (Cert.KernelIdeal.Scores.prodOf m c),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq _ _ _ _).trans ?_
  rw [(hagree c).1, (hagree c).2.1, (hagree c).2.2.1, (hagree c).2.2.2]
  have hr := Cert.InRange.ranges_of_pre _ _ _ _ (hpre c)
  refine funext fun (e : Cert.ReferenceIdeal.S2000000.Idx) => ?_
  rw [Cert.ReferenceIdeal.EdgeScore.result_apply]
  unfold Cert.KernelIdeal.Scores.edgeScores
  refine congrArg Cert.Score.score (funext fun k => ?_)
  exact (congrArg (Cert.ReferenceIdeal.Read.val_main_v26 (F := Ideal) _ _ _ _)
      (funext fun a => by match a with | ⟨0, _⟩ => rfl | ⟨1, _⟩ => rfl)).trans
    (congrFun (Cert.InRange.prod_eq _ _ _ _ hr).symm _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
